-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x7 .f32) (main_arg5 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x7 : Shape := ⟨2, ![100000, 7]⟩
abbrev S5000x7 : Shape := ⟨2, ![5000, 7]⟩
abbrev S3300000x7 : Shape := ⟨2, ![3300000, 7]⟩
abbrev S1x7 : Shape := ⟨2, ![1, 7]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x7, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x7, .f32⟩
  | .hbm, ⟨75, _⟩ => ⟨S3300000x1, .f32⟩
  | .hbm, ⟨76, _⟩ => ⟨S3300000x7, .f32⟩
  | .hbm, ⟨77, _⟩ => ⟨S3300000x7, .f32⟩
  | .hbm, ⟨78, _⟩ => ⟨S_, .f32⟩
  | .hbm, ⟨79, _⟩ => ⟨S100000x7, .f32⟩
  | .hbm, ⟨80, _⟩ => ⟨S3300000x1, .i32⟩
  | .hbm, ⟨81, _⟩ => ⟨S100000x7, .f32⟩
  | .hbm, ⟨82, _⟩ => ⟨S1x7, .f32⟩
  | .hbm, ⟨83, _⟩ => ⟨S100000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S16x7, .f32⟩
  | .local _ .vmem, ⟨13, _⟩ => ⟨S5000x7, .f32⟩
  | .local _ .vmem, ⟨14, _⟩ => ⟨S5000x7, .f32⟩
  | .local _ .vmem, ⟨15, _⟩ => ⟨S5000x7, .f32⟩
  | .local _ .vmem, ⟨16, _⟩ => ⟨S5000x7, .f32⟩
  | .local _ .vmem, ⟨17, _⟩ => ⟨S1x7, .f32⟩
  | .local _ .vmem, ⟨18, _⟩ => ⟨S5000x7, .f32⟩
  | .local _ .vmem, ⟨19, _⟩ => ⟨S5000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x7 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x7 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x7 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x7_S16x7_0_0 : ∀ a, (![0, 0] : Fin 2 → Nat) a + S16x7.size a ≤ S16x7.size a
  h_S16x7 : 0 < S16x7.numel
  inb_S5000x7_S5000x7_0_0 : ∀ a, (![0, 0] : Fin 2 → Nat) a + S5000x7.size a ≤ S5000x7.size a
  h_S5000x7 : 0 < S5000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S5000x7_S5000x7 : S5000x7.ShapeCasts S5000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  reduces_S5000x7_S5000 : S5000x7.Reduces [1] S5000
  shapeCasts_S5000_S5000x1 : S5000.ShapeCasts S5000x1
  broadcasts_S5000x1_S5000x7 : S5000x1.Broadcasts S5000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x7_S5000x7_1_0_0_1_n_n_wf : DotDims.WF S5000x16 S16x7 S5000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x7.size a ≤ S16x7.size a
  hwx2_1 : ∀ i : grid2.Coords, EltTy.bits .f32 = 32 ∨ (Rect.block (s := S16x7) S16x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x7.size a ≤ S100000x7.size a
  hwx2_2 : ∀ i : grid2.Coords, EltTy.bits .f32 = 32 ∨ (Rect.block (s := S100000x7) S5000x7.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x7.size a ≤ S100000x7.size a
  hwx3_0 : ∀ i : grid3.Coords, EltTy.bits .f32 = 32 ∨ (Rect.block (s := S100000x7) S5000x7.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x7.size a ≤ S1x7.size a
  hwx3_1 : ∀ i : grid3.Coords, EltTy.bits .f32 = 32 ∨ (Rect.block (s := S1x7) S1x7.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x7.size a ≤ S100000x7.size a
  hwx3_2 : ∀ i : grid3.Coords, EltTy.bits .f32 = 32 ∨ (Rect.block (s := S100000x7) S5000x7.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x7_S5000x7_1_0_0_1_n_n : DotDims S5000x16 S16x7 S5000x7 where
  lhsContracting := [1]
  rhsContracting := [0]
  lhsNonContracting := [0]
  rhsNonContracting := [1]
  lhsBatch := []
  rhsBatch := []
  wf := dot_S5000x16_S16x7_S5000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x7.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x7.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x7.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.Tile0.lean ====
/-
  What one tile of the first feature transform holds: the MXU product of a `[5000, 512]` row block with the whole
  `[512, 16]` weight, accumulated from zero, read on the extended reals (where the bf16 roundings of the operands are
  the identity) as `∑ k < 512, x[p, k] · w[k, q]`.
-/
import proofs.«108796_j22582938042866_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

theorem mm0_lhs_0 (i : S5000x16.Idx) (q : dot_S5000x512_S512x16_S5000x16_1_0_0_1_n_n.contr.Idx) :
    (dot_S5000x512_S512x16_S5000x16_1_0_0_1_n_n.lhsIdx i q 0).val = (i 0).val := by
  unfold DotDims.lhsIdx
  rw [dif_neg (show ¬(0 : Fin S5000x512.rank) ∈ dot_S5000x512_S512x16_S5000x16_1_0_0_1_n_n.lhsBatch by decide), dif_pos (show (0 : Fin S5000x512.rank) ∈ dot_S5000x512_S512x16_S5000x16_1_0_0_1_n_n.lhsNonContracting by decide)]
  rfl
theorem mm0_lhs_1 (i : S5000x16.Idx) (q : dot_S5000x512_S512x16_S5000x16_1_0_0_1_n_n.contr.Idx) :
    (dot_S5000x512_S512x16_S5000x16_1_0_0_1_n_n.lhsIdx i q 1).val = (q ⟨0, by decide⟩).val :=
  dot_S5000x512_S512x16_S5000x16_1_0_0_1_n_n.lhsIdx_val_of_single rfl i q
theorem mm0_rhs_0 (i : S5000x16.Idx) (q : dot_S5000x512_S512x16_S5000x16_1_0_0_1_n_n.contr.Idx) :
    (dot_S5000x512_S512x16_S5000x16_1_0_0_1_n_n.rhsIdx i q 0).val = (q ⟨0, by decide⟩).val :=
  dot_S5000x512_S512x16_S5000x16_1_0_0_1_n_n.rhsIdx_val_of_single rfl i q
theorem mm0_rhs_1 (i : S5000x16.Idx) (q : dot_S5000x512_S512x16_S5000x16_1_0_0_1_n_n.contr.Idx) :
    (dot_S5000x512_S512x16_S5000x16_1_0_0_1_n_n.rhsIdx i q 1).val = (i 1).val := by
  unfold DotDims.rhsIdx
  rw [dif_neg (show ¬(1 : Fin S512x16.rank) ∈ dot_S5000x512_S512x16_S5000x16_1_0_0_1_n_n.rhsBatch by decide), dif_pos (show (1 : Fin S512x16.rank) ∈ dot_S5000x512_S512x16_S5000x16_1_0_0_1_n_n.rhsNonContracting by decide)]
  rfl

/-- The tile's product at an entry: the row of the block against the column of the weight. -/
theorem pay0_apply (x : Vec Ideal S5000x512 .f32) (w : Vec Ideal S512x16 .f32) (j : S5000x16.Idx) :
    k0_pay1 (F := Ideal) x w j = ∑ k : Fin 512, x (ix2 (j 0) k) * w (ix2 k (j 1)) := by
  unfold k0_pay1
  simp only [matmul]
  rw [Ideal.matmul_constant_zero_apply, ← Equiv.sum_comp (contrEquiv1 dot_S5000x512_S512x16_S5000x16_1_0_0_1_n_n 512 rfl rfl).symm]
  refine Finset.sum_congr rfl fun k _ => ?_
  have hk := contrEquiv1_symm_val dot_S5000x512_S512x16_S5000x16_1_0_0_1_n_n 512 rfl rfl k
  have el : dot_S5000x512_S512x16_S5000x16_1_0_0_1_n_n.lhsIdx j ((contrEquiv1 dot_S5000x512_S512x16_S5000x16_1_0_0_1_n_n 512 rfl rfl).symm k) = ix2 (j 0) k := funext fun a => Fin.ext (by
    match a with
    | ⟨0, _⟩ => exact mm0_lhs_0 _ _
    | ⟨1, _⟩ => exact (mm0_lhs_1 _ _).trans hk)
  have er : dot_S5000x512_S512x16_S5000x16_1_0_0_1_n_n.rhsIdx j ((contrEquiv1 dot_S5000x512_S512x16_S5000x16_1_0_0_1_n_n 512 rfl rfl).symm k) = ix2 k (j 1) := funext fun a => Fin.ext (by
    match a with
    | ⟨0, _⟩ => exact (mm0_rhs_0 _ _).trans hk
    | ⟨1, _⟩ => exact mm0_rhs_1 _ _)
  rw [el, er]
  first | rfl | (rw [shapeCast_self]; rfl)

end Cert.KernelIdeal.Val

end
-- ==== Proof.Spec.lean ====
/-
  The four dense stages of the two-layer graph convolution, each as one function of whole arrays read index by index on
  the extended reals. The sparse neighbour aggregation between them is the same host computation in both programs and is
  never opened; these four are what the tiled kernels compute block by block and what the reference computes in one piece.

  * `dense1 x w`   : the first feature transform, `(x · w)[r, c] = ∑ q < 512, x[r, q] · w[q, c]`;
  * `biasRelu a b` : `max (a[r, c] + b[0, c]) 0`, the bias a `[1, 16]` row;
  * `dense2 h w`   : the second transform, `∑ q < 16, h[r, q] · w[q, c]`;
  * `biasLogSoftmax a b` : with `z[r, c] = a[r, c] + b[0, c]`, `M r` the largest of the seven entries of row `r` and
    `L r = log ∑ c, exp (z[r, c] - M r)`, the entry `(z[r, c] - M r) - L r`.
-/
import Idealize.ShloMosaic.Lib.ValueIdx
import Idealize.ShloMosaic.PureOps.Ideal.Laws

noncomputable section

namespace Cert.Spec

open Idealize.ShloMosaic Idealize.ShloMosaic.ValueIdx

/-- A bias vector laid out as the `[1, n]` row the kernels take it as. -/
def asRow {n : ℕ} (b : (⟨1, ![n]⟩ : Shape).Idx → EReal) : (⟨2, ![1, n]⟩ : Shape).Idx → EReal :=
  fun i => b (ix1 (i 1))

/-- The first feature transform: row `r` of `x` against column `c` of `w`. -/
def dense1 (x : (⟨2, ![100000, 512]⟩ : Shape).Idx → EReal) (w : (⟨2, ![512, 16]⟩ : Shape).Idx → EReal) :
    (⟨2, ![100000, 16]⟩ : Shape).Idx → EReal :=
  fun i => ∑ q : Fin 512, x (ix2 (i 0) q) * w (ix2 q (i 1))

/-- The second feature transform. -/
def dense2 (h : (⟨2, ![100000, 16]⟩ : Shape).Idx → EReal) (w : (⟨2, ![16, 7]⟩ : Shape).Idx → EReal) :
    (⟨2, ![100000, 7]⟩ : Shape).Idx → EReal :=
  fun i => ∑ q : Fin 16, h (ix2 (i 0) q) * w (ix2 q (i 1))

/-- Bias row added to every row, then the positive part. -/
def biasRelu (a : (⟨2, ![100000, 16]⟩ : Shape).Idx → EReal) (b : (⟨2, ![1, 16]⟩ : Shape).Idx → EReal) :
    (⟨2, ![100000, 16]⟩ : Shape).Idx → EReal :=
  fun i => max (a i + b (ix2 (0 : Fin 1) (i 1))) 0

/-- A row of the biased scores. -/
def scoreRow (a : (⟨2, ![100000, 7]⟩ : Shape).Idx → EReal) (b : (⟨2, ![1, 7]⟩ : Shape).Idx → EReal)
    (r : Fin 100000) (c : Fin 7) : EReal :=
  a (ix2 r c) + b (ix2 (0 : Fin 1) c)

/-- The largest entry of a row of scores: the fold of `max` from `⊥` over its seven entries. -/
def rowMax (a : (⟨2, ![100000, 7]⟩ : Shape).Idx → EReal) (b : (⟨2, ![1, 7]⟩ : Shape).Idx → EReal) (r : Fin 100000) : EReal :=
  (Finset.univ : Finset (Fin 7)).fold max ⊥ (scoreRow a b r)

/-- The logarithm of the row's sum of shifted exponentials. -/
def rowLogSum (a : (⟨2, ![100000, 7]⟩ : Shape).Idx → EReal) (b : (⟨2, ![1, 7]⟩ : Shape).Idx → EReal) (r : Fin 100000) : EReal :=
  Ideal.log (∑ c : Fin 7, Ideal.exp (scoreRow a b r c - rowMax a b r))

/-- Bias row added, then the row-wise log-softmax in its shifted form. -/
def biasLogSoftmax (a : (⟨2, ![100000, 7]⟩ : Shape).Idx → EReal) (b : (⟨2, ![1, 7]⟩ : Shape).Idx → EReal) :
    (⟨2, ![100000, 7]⟩ : Shape).Idx → EReal :=
  fun i => (scoreRow a b (i 0) (i 1) - rowMax a b (i 0)) - rowLogSum a b (i 0)

end Cert.Spec

end
-- ==== Proof.Region0.lean ====
/-
  The first feature transform as the tiled kernel computes it. The grid has 20 points; point `t` reads rows
  `5000 t … 5000 t + 4999` of `x` and the whole weight, and writes the same rows of the result. A tile's entry `(p, q)`
  is `∑ k, x[5000 t + p, k] · w[k, q]`, which is entry `(5000 t + p, q)` of the whole product; the twenty row blocks tile
  the `[100000, 16]` result, so after the region the result array is the whole product of the arrays the region found.
-/
import proofs.«108796_j22582938042866_1_alg».proof.Proof.Gen.KernelIdeal.Frame
import proofs.«108796_j22582938042866_1_alg».proof.Proof.Tile0
import proofs.«108796_j22582938042866_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Where each window's block sits at point `t`: the row-blocked operand and the result at block row `t`, the weight whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row block of `x` at point `t`, entry `(p, k)`, is `x[5000 t + p, k]`. -/
theorem xblk0_apply (c : Dev nD) (t : Fin cfg0.N) (y : S5000x512.Idx) (i : S100000x512.Idx)
    (h0 : (i 0).val = 5000 * t.val + (y 0).val) (h1 : (i 1).val = (y 1).val) :
    (iblk0 V c 0 t : Vec Ideal S5000x512 .f32) y = (V c main_arg0 : S100000x512.Idx → EReal) i := by
  obtain ⟨e0, e1, -, -, -, -⟩ := idx0 t
  unfold iblk0
  rw [View.read_apply]
  show (V c main_arg0 : S100000x512.Idx → EReal) _ = _
  refine congrArg _ (funext fun a => Fin.ext ?_)
  match a with
  | ⟨0, _⟩ => show win0_0.index t 0 * 5000 + 1 * (y 0).val = (i 0).val; rw [e0, h0]; omega
  | ⟨1, _⟩ => show win0_0.index t 1 * 512 + 1 * (y 1).val = (i 1).val; rw [e1, h1]; omega

/-- The weight's block at every point is the whole weight. -/
theorem wblk0_apply (c : Dev nD) (t : Fin cfg0.N) (y : S512x16.Idx) :
    (iblk0 V c 1 t : Vec Ideal S512x16 .f32) y = (V c main_arg2 : S512x16.Idx → EReal) y := by
  obtain ⟨-, -, e2, e3, -, -⟩ := idx0 t
  unfold iblk0
  rw [View.read_apply]
  show (V c main_arg2 : S512x16.Idx → EReal) _ = _
  refine congrArg _ (funext fun a => Fin.ext ?_)
  match a with
  | ⟨0, _⟩ => show win0_1.index t 0 * 512 + 1 * (y 0).val = (y 0).val; rw [e2]; omega
  | ⟨1, _⟩ => show win0_1.index t 1 * 16 + 1 * (y 1).val = (y 1).val; rw [e3]; omega

/-- What point `t` writes back is block `t` of the whole product. -/
theorem flushed0 (c : Dev nD) (t : Fin cfg0.N) :
    (dat0 V c).flushed 2 t = ((cfg0.win 2).blk t).view.read (Elt Ideal) (Spec.dense1 (V c main_arg0) (V c main_arg2)) := by
  show (cfg0.win 2).cut (grid0.coords t) ((dat0 V c).after 2 t) = _
  rw [after0_2]
  unfold out0_2
  rw [View.canon_unit_zero hz0]
  simp only [View.ld_unit_zero (S := S5000x512) hz0, View.ld_unit_zero (S := S512x16) hz0]
  obtain ⟨-, -, -, -, e4, e5⟩ := idx0 t
  funext j
  show k0_pay1 (F := Ideal) (iblk0 V c 0 t) (iblk0 V c 1 t) j = Spec.dense1 (V c main_arg0) (V c main_arg2) (((cfg0.win 2).blk t).view.emb j)
  refine (pay0_apply _ _ j).trans ?_
  unfold Spec.dense1
  refine Finset.sum_congr rfl fun k _ => ?_
  have hr : ((((cfg0.win 2).blk t).view.emb j) 0).val = 5000 * t.val + (j 0).val := by
    show win0_2.index t 0 * 5000 + 1 * (j 0).val = _; rw [e4]; omega
  have hc : ((((cfg0.win 2).blk t).view.emb j) 1).val = (j 1).val := by
    show win0_2.index t 1 * 16 + 1 * (j 1).val = _; rw [e5]; omega
  rw [xblk0_apply V c t (ix2 (j 0) k) (ix2 ((((cfg0.win 2).blk t).view.emb j) 0) k) hr rfl, wblk0_apply V c t (ix2 k (j 1))]
  refine congrArg _ (congrArg _ (funext fun a => Fin.ext ?_))
  match a with
  | ⟨0, _⟩ => rfl
  | ⟨1, _⟩ => exact hc.symm

/-- An index of the result is in point `t`'s block iff each coordinate is in the block's range. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Row `r` of the result is written by point `r / 5000`. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have ht : (i 0).val / 5000 < cfg0.N := by rw [hN]; omega
  obtain ⟨-, -, -, -, e4, e5⟩ := idx0 ⟨(i 0).val / 5000, ht⟩
  refine ⟨⟨(i 0).val / 5000, ht⟩, flush0_2 _, ?_⟩
  rw [mem_blk0]
  intro a
  match a with
  | ⟨0, _⟩ =>
    show win0_2.index ⟨(i 0).val / 5000, ht⟩ 0 * 5000 ≤ (i 0).val ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 16 ≤ (i 1).val ∧ (i 1).val < win0_2.index ⟨(i 0).val / 5000, ht⟩ 1 * 16 + 16
    rw [e5]; omega

/-- After the region the result array holds the whole product of the arrays the region found. -/
theorem arr0 (c : Dev nD) : (dat0 V c).arrAt 2 cfg0.N = Spec.dense1 (V c main_arg0) (V c main_arg2) :=
  (dat0 V c).arrAt_eq_of_cover 2 _ (fun t _ => flushed0 V c t) cover0

end Cert.KernelIdeal.Val

end
-- ==== Proof.Tile1.lean ====
/-
  What one tile of the bias-and-positive-part kernel holds: the `[1, 16]` bias row is laid along every row of the
  `[5000, 16]` block and added, and the result is compared with zero; at entry `(p, q)` this is `max (a[p, q] + b[0, q]) 0`.
-/
import proofs.«108796_j22582938042866_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- The tile's entry: the block's entry plus the bias of its column, or zero if that is negative. -/
theorem pay1_apply (a : Vec Ideal S5000x16 .f32) (b : Vec Ideal S1x16 .f32) (p : Fin 5000) (q : Fin 16) :
    k1_pay1 (F := Ideal) a b (ix2 p q) = max (a (ix2 p q) + b (ix2 (0 : Fin 1) q)) 0 := by
  unfold k1_pay1
  simp only [shapeCast_self]
  rw [maximumf_apply, addf_apply, broadcast_apply, broadcastTo_1b_ab_apply]
  show max _ (Ideal.ofBits .f32 0x00000000#32) = _
  rw [Ideal.ofBits_zero_f32]

end Cert.KernelIdeal.Val

end
-- ==== Proof.Region1.lean ====
/-
  The bias-and-positive-part stage as the tiled kernel computes it. Point `t` of the 20-point grid reads rows
  `5000 t … 5000 t + 4999` of the aggregated features and the whole `[1, 16]` bias row and writes the same rows of the
  result; the stage is pointwise in the row, so a tile's entry `(p, q)` is entry `(5000 t + p, q)` of the whole-array
  function, and the twenty row blocks tile the result.
-/
import proofs.«108796_j22582938042866_1_alg».proof.Proof.Gen.KernelIdeal.Frame
import proofs.«108796_j22582938042866_1_alg».proof.Proof.Tile1
import proofs.«108796_j22582938042866_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- Where each window's block sits at point `t`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The row block of the aggregated features at point `t`, entry `(p, q)`, is entry `(5000 t + p, q)` of the array. -/
theorem ablk1_apply (c : Dev nD) (t : Fin cfg1.N) (y : S5000x16.Idx) (i : S100000x16.Idx)
    (h0 : (i 0).val = 5000 * t.val + (y 0).val) (h1 : (i 1).val = (y 1).val) :
    (iblk1 V c 0 t : Vec Ideal S5000x16 .f32) y = (V c main_v43 : S100000x16.Idx → EReal) i := by
  obtain ⟨e0, e1, -, -, -, -⟩ := idx1 t
  unfold iblk1
  rw [View.read_apply]
  show (V c main_v43 : S100000x16.Idx → EReal) _ = _
  refine congrArg _ (funext fun a => Fin.ext ?_)
  match a with
  | ⟨0, _⟩ => show win1_0.index t 0 * 5000 + 1 * (y 0).val = (i 0).val; rw [e0, h0]; omega
  | ⟨1, _⟩ => show win1_0.index t 1 * 16 + 1 * (y 1).val = (i 1).val; rw [e1, h1]; omega

/-- The bias row's block at every point is the whole row. -/
theorem bblk1_apply (c : Dev nD) (t : Fin cfg1.N) (y : S1x16.Idx) :
    (iblk1 V c 1 t : Vec Ideal S1x16 .f32) y = (V c main_v44 : S1x16.Idx → EReal) y := by
  obtain ⟨-, -, e2, e3, -, -⟩ := idx1 t
  unfold iblk1
  rw [View.read_apply]
  show (V c main_v44 : S1x16.Idx → EReal) _ = _
  refine congrArg _ (funext fun a => Fin.ext ?_)
  match a with
  | ⟨0, _⟩ => show win1_1.index t 0 * 1 + 1 * (y 0).val = (y 0).val; rw [e2]; omega
  | ⟨1, _⟩ => show win1_1.index t 1 * 16 + 1 * (y 1).val = (y 1).val; rw [e3]; omega

/-- What point `t` writes back is block `t` of the whole-array function. -/
theorem flushed1 (c : Dev nD) (t : Fin cfg1.N) :
    (dat1 V c).flushed 2 t = ((cfg1.win 2).blk t).view.read (Elt Ideal) (Spec.biasRelu (V c main_v43) (V c main_v44)) := by
  show (cfg1.win 2).cut (grid1.coords t) ((dat1 V c).after 2 t) = _
  rw [after1_2]
  unfold out1_2
  rw [View.canon_unit_zero hz1]
  simp only [View.ld_unit_zero (S := S5000x16) hz1, View.ld_unit_zero (S := S1x16) hz1]
  obtain ⟨-, -, -, -, e4, e5⟩ := idx1 t
  funext j
  show k1_pay1 (F := Ideal) (iblk1 V c 0 t) (iblk1 V c 1 t) j = Spec.biasRelu (V c main_v43) (V c main_v44) (((cfg1.win 2).blk t).view.emb j)
  obtain ⟨p, q, rfl⟩ : ∃ (p : Fin 5000) (q : Fin 16), j = ix2 p q := ⟨j 0, j 1, eq_ix2 j⟩
  refine (pay1_apply _ _ p q).trans ?_
  unfold Spec.biasRelu
  have hr : ((((cfg1.win 2).blk t).view.emb (ix2 p q)) 0).val = 5000 * t.val + p.val := by
    show win1_2.index t 0 * 5000 + 1 * p.val = _; rw [e4]; omega
  have hc : ((((cfg1.win 2).blk t).view.emb (ix2 p q)) 1).val = q.val := by
    show win1_2.index t 1 * 16 + 1 * q.val = _; rw [e5]; omega
  rw [ablk1_apply V c t (ix2 p q) (((cfg1.win 2).blk t).view.emb (ix2 p q)) hr hc, bblk1_apply V c t (ix2 (0 : Fin 1) q)]
  have e : (ix2 (0 : Fin 1) ((((cfg1.win 2).blk t).view.emb (ix2 p q)) 1) : S1x16.Idx) = ix2 (0 : Fin 1) q :=
    funext fun a => Fin.ext (by
      match a with
      | ⟨0, _⟩ => rfl
      | ⟨1, _⟩ => exact hc)
  rw [e]

/-- An index of the result is in point `t`'s block iff each coordinate is in the block's range. -/
theorem mem_blk1 (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v45).slice (win1_2.rect t)).set ↔ _
  rw [View.set_slice_whole, Rect.mem_set_unit]
  exact Iff.rfl

/-- Row `r` of the result is written by point `r / 5000`. -/
theorem cover1 (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  have ht : (i 0).val / 5000 < cfg1.N := by rw [hN]; omega
  obtain ⟨-, -, -, -, e4, e5⟩ := idx1 ⟨(i 0).val / 5000, ht⟩
  refine ⟨⟨(i 0).val / 5000, ht⟩, flush1_2 _, ?_⟩
  rw [mem_blk1]
  intro a
  match a with
  | ⟨0, _⟩ =>
    show win1_2.index ⟨(i 0).val / 5000, ht⟩ 0 * 5000 ≤ (i 0).val ∧ (i 0).val < win1_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ 1 * 16 ≤ (i 1).val ∧ (i 1).val < win1_2.index ⟨(i 0).val / 5000, ht⟩ 1 * 16 + 16
    rw [e5]; omega

/-- After the region the result array holds the whole-array function of the arrays the region found. -/
theorem arr1 (c : Dev nD) : (dat1 V c).arrAt 2 cfg1.N = Spec.biasRelu (V c main_v43) (V c main_v44) :=
  (dat1 V c).arrAt_eq_of_cover 2 _ (fun t _ => flushed1 V c t) cover1

end Cert.KernelIdeal.Val

end
-- ==== Proof.Tile2.lean ====
/-
  What one tile of the second feature transform holds: the MXU product of a `[5000, 16]` row block with the whole
  `[16, 7]` weight, accumulated from zero, read on the extended reals (where the bf16 roundings of the operands are
  the identity) as `∑ k < 16, x[p, k] · w[k, q]`.
-/
import proofs.«108796_j22582938042866_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

theorem mm2_lhs_0 (i : S5000x7.Idx) (q : dot_S5000x16_S16x7_S5000x7_1_0_0_1_n_n.contr.Idx) :
    (dot_S5000x16_S16x7_S5000x7_1_0_0_1_n_n.lhsIdx i q 0).val = (i 0).val := by
  unfold DotDims.lhsIdx
  rw [dif_neg (show ¬(0 : Fin S5000x16.rank) ∈ dot_S5000x16_S16x7_S5000x7_1_0_0_1_n_n.lhsBatch by decide), dif_pos (show (0 : Fin S5000x16.rank) ∈ dot_S5000x16_S16x7_S5000x7_1_0_0_1_n_n.lhsNonContracting by decide)]
  rfl
theorem mm2_lhs_1 (i : S5000x7.Idx) (q : dot_S5000x16_S16x7_S5000x7_1_0_0_1_n_n.contr.Idx) :
    (dot_S5000x16_S16x7_S5000x7_1_0_0_1_n_n.lhsIdx i q 1).val = (q ⟨0, by decide⟩).val :=
  dot_S5000x16_S16x7_S5000x7_1_0_0_1_n_n.lhsIdx_val_of_single rfl i q
theorem mm2_rhs_0 (i : S5000x7.Idx) (q : dot_S5000x16_S16x7_S5000x7_1_0_0_1_n_n.contr.Idx) :
    (dot_S5000x16_S16x7_S5000x7_1_0_0_1_n_n.rhsIdx i q 0).val = (q ⟨0, by decide⟩).val :=
  dot_S5000x16_S16x7_S5000x7_1_0_0_1_n_n.rhsIdx_val_of_single rfl i q
theorem mm2_rhs_1 (i : S5000x7.Idx) (q : dot_S5000x16_S16x7_S5000x7_1_0_0_1_n_n.contr.Idx) :
    (dot_S5000x16_S16x7_S5000x7_1_0_0_1_n_n.rhsIdx i q 1).val = (i 1).val := by
  unfold DotDims.rhsIdx
  rw [dif_neg (show ¬(1 : Fin S16x7.rank) ∈ dot_S5000x16_S16x7_S5000x7_1_0_0_1_n_n.rhsBatch by decide), dif_pos (show (1 : Fin S16x7.rank) ∈ dot_S5000x16_S16x7_S5000x7_1_0_0_1_n_n.rhsNonContracting by decide)]
  rfl

/-- The tile's product at an entry: the row of the block against the column of the weight. -/
theorem pay2_apply (x : Vec Ideal S5000x16 .f32) (w : Vec Ideal S16x7 .f32) (j : S5000x7.Idx) :
    k2_pay1 (F := Ideal) x w j = ∑ k : Fin 16, x (ix2 (j 0) k) * w (ix2 k (j 1)) := by
  unfold k2_pay1
  simp only [matmul]
  rw [Ideal.matmul_constant_zero_apply, ← Equiv.sum_comp (contrEquiv1 dot_S5000x16_S16x7_S5000x7_1_0_0_1_n_n 16 rfl rfl).symm]
  refine Finset.sum_congr rfl fun k _ => ?_
  have hk := contrEquiv1_symm_val dot_S5000x16_S16x7_S5000x7_1_0_0_1_n_n 16 rfl rfl k
  have el : dot_S5000x16_S16x7_S5000x7_1_0_0_1_n_n.lhsIdx j ((contrEquiv1 dot_S5000x16_S16x7_S5000x7_1_0_0_1_n_n 16 rfl rfl).symm k) = ix2 (j 0) k := funext fun a => Fin.ext (by
    match a with
    | ⟨0, _⟩ => exact mm2_lhs_0 _ _
    | ⟨1, _⟩ => exact (mm2_lhs_1 _ _).trans hk)
  have er : dot_S5000x16_S16x7_S5000x7_1_0_0_1_n_n.rhsIdx j ((contrEquiv1 dot_S5000x16_S16x7_S5000x7_1_0_0_1_n_n 16 rfl rfl).symm k) = ix2 k (j 1) := funext fun a => Fin.ext (by
    match a with
    | ⟨0, _⟩ => exact (mm2_rhs_0 _ _).trans hk
    | ⟨1, _⟩ => exact mm2_rhs_1 _ _)
  rw [el, er]
  first | rfl | (rw [shapeCast_self]; rfl)

end Cert.KernelIdeal.Val

end
-- ==== Proof.Region2.lean ====
/-
  The second feature transform as the tiled kernel computes it. The grid has 20 points; point `t` reads rows
  `5000 t … 5000 t + 4999` of the hidden activations and the whole weight, and writes the same rows of the result. A tile's entry `(p, q)`
  is `∑ k, x[5000 t + p, k] · w[k, q]`, which is entry `(5000 t + p, q)` of the whole product; the twenty row blocks tile
  the `[100000, 7]` result, so after the region the result array is the whole product of the arrays the region found.
-/
import proofs.«108796_j22582938042866_1_alg».proof.Proof.Gen.KernelIdeal.Frame
import proofs.«108796_j22582938042866_1_alg».proof.Proof.Tile2
import proofs.«108796_j22582938042866_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- Where each window's block sits at point `t`: the row-blocked operand and the result at block row `t`, the weight whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The row block of the hidden activations at point `t`, entry `(p, k)`, is `x[5000 t + p, k]`. -/
theorem xblk2_apply (c : Dev nD) (t : Fin cfg2.N) (y : S5000x16.Idx) (i : S100000x16.Idx)
    (h0 : (i 0).val = 5000 * t.val + (y 0).val) (h1 : (i 1).val = (y 1).val) :
    (iblk2 V c 0 t : Vec Ideal S5000x16 .f32) y = (V c main_v45 : S100000x16.Idx → EReal) i := by
  obtain ⟨e0, e1, -, -, -, -⟩ := idx2 t
  unfold iblk2
  rw [View.read_apply]
  show (V c main_v45 : S100000x16.Idx → EReal) _ = _
  refine congrArg _ (funext fun a => Fin.ext ?_)
  match a with
  | ⟨0, _⟩ => show win2_0.index t 0 * 5000 + 1 * (y 0).val = (i 0).val; rw [e0, h0]; omega
  | ⟨1, _⟩ => show win2_0.index t 1 * 16 + 1 * (y 1).val = (i 1).val; rw [e1, h1]; omega

/-- The weight's block at every point is the whole weight. -/
theorem wblk2_apply (c : Dev nD) (t : Fin cfg2.N) (y : S16x7.Idx) :
    (iblk2 V c 1 t : Vec Ideal S16x7 .f32) y = (V c main_arg4 : S16x7.Idx → EReal) y := by
  obtain ⟨-, -, e2, e3, -, -⟩ := idx2 t
  unfold iblk2
  rw [View.read_apply]
  show (V c main_arg4 : S16x7.Idx → EReal) _ = _
  refine congrArg _ (funext fun a => Fin.ext ?_)
  match a with
  | ⟨0, _⟩ => show win2_1.index t 0 * 16 + 1 * (y 0).val = (y 0).val; rw [e2]; omega
  | ⟨1, _⟩ => show win2_1.index t 1 * 7 + 1 * (y 1).val = (y 1).val; rw [e3]; omega

/-- What point `t` writes back is block `t` of the whole product. -/
theorem flushed2 (c : Dev nD) (t : Fin cfg2.N) :
    (dat2 V c).flushed 2 t = ((cfg2.win 2).blk t).view.read (Elt Ideal) (Spec.dense2 (V c main_v45) (V c main_arg4)) := by
  show (cfg2.win 2).cut (grid2.coords t) ((dat2 V c).after 2 t) = _
  rw [after2_2]
  unfold out2_2
  rw [View.canon_unit_zero hz2]
  simp only [View.ld_unit_zero (S := S5000x16) hz2, View.ld_unit_zero (S := S16x7) hz2]
  obtain ⟨-, -, -, -, e4, e5⟩ := idx2 t
  funext j
  show k2_pay1 (F := Ideal) (iblk2 V c 0 t) (iblk2 V c 1 t) j = Spec.dense2 (V c main_v45) (V c main_arg4) (((cfg2.win 2).blk t).view.emb j)
  refine (pay2_apply _ _ j).trans ?_
  unfold Spec.dense2
  refine Finset.sum_congr rfl fun k _ => ?_
  have hr : ((((cfg2.win 2).blk t).view.emb j) 0).val = 5000 * t.val + (j 0).val := by
    show win2_2.index t 0 * 5000 + 1 * (j 0).val = _; rw [e4]; omega
  have hc : ((((cfg2.win 2).blk t).view.emb j) 1).val = (j 1).val := by
    show win2_2.index t 1 * 7 + 1 * (j 1).val = _; rw [e5]; omega
  rw [xblk2_apply V c t (ix2 (j 0) k) (ix2 ((((cfg2.win 2).blk t).view.emb j) 0) k) hr rfl, wblk2_apply V c t (ix2 k (j 1))]
  refine congrArg _ (congrArg _ (funext fun a => Fin.ext ?_))
  match a with
  | ⟨0, _⟩ => rfl
  | ⟨1, _⟩ => exact hc.symm

/-- An index of the result is in point `t`'s block iff each coordinate is in the block's range. -/
theorem mem_blk2 (t : Fin cfg2.N) (i : S100000x7.Idx) :
    i ∈ ((cfg2.win 2).blk t).view.set ↔ ∀ a : Fin 2, win2_2.index t a * S5000x7.size a ≤ (i a).val ∧ (i a).val < win2_2.index t a * S5000x7.size a + S5000x7.size a := by
  show i ∈ ((View.whole main_v46).slice (win2_2.rect t)).set ↔ _
  rw [View.set_slice_whole, Rect.mem_set_unit]
  exact Iff.rfl

/-- Row `r` of the result is written by point `r / 5000`. -/
theorem cover2 (i : S100000x7.Idx) : ∃ t : Fin cfg2.N, (cfg2.win 2).flush t = true ∧ i ∈ ((cfg2.win 2).blk t).view.set := by
  have hi0 : (i 0).val < 100000 := (i 0).isLt
  have hi1 : (i 1).val < 7 := (i 1).isLt
  have hN : cfg2.N = 20 := N_2
  have ht : (i 0).val / 5000 < cfg2.N := by rw [hN]; omega
  obtain ⟨-, -, -, -, e4, e5⟩ := idx2 ⟨(i 0).val / 5000, ht⟩
  refine ⟨⟨(i 0).val / 5000, ht⟩, flush2_2 _, ?_⟩
  rw [mem_blk2]
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 7 ≤ (i 1).val ∧ (i 1).val < win2_2.index ⟨(i 0).val / 5000, ht⟩ 1 * 7 + 7
    rw [e5]; omega

/-- After the region the result array holds the whole product of the arrays the region found. -/
theorem arr2 (c : Dev nD) : (dat2 V c).arrAt 2 cfg2.N = Spec.dense2 (V c main_v45) (V c main_arg4) :=
  (dat2 V c).arrAt_eq_of_cover 2 _ (fun t _ => flushed2 V c t) cover2

end Cert.KernelIdeal.Val

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.Tile3.lean ====
/-
  What one tile of the bias-and-log-softmax kernel holds. With `z[p, c] = a[p, c] + b[0, c]` the biased scores of the
  `[5000, 7]` block, `M p` the largest of the seven scores of row `p` (the fold of `max` from `⊥`) and
  `L p = log ∑ c, exp (z[p, c] - M p)`, the tile's entry `(p, q)` is `(z[p, q] - M p) - L p`: the row maximum and the row
  sum are lane reductions kept as `[5000, 1]` columns and laid back along the rows.
-/
import proofs.«108796_j22582938042866_1_alg».proof.Proof.Gen.KernelIdeal.Skeleton
import proofs.«108796_j22582938042866_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- The pattern of `-∞` denotes the bottom of the extended reals. -/
theorem ofBits_neg_inf : Ideal.ofBits .f32 0xFF800000#32 = (⊥ : EReal) := by simp [Ideal.ofBits, Ideal.ieee]

/-- The largest entry along the rows of an `[a, d]` block (a float `multi_reduction <maximumf>` over axis 1 from the
    neutral accumulator), read on the extended reals at row `i`, is the fold of `max` over the row's `d` entries. -/
theorem rowMax_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin d)).fold max (FloatOps.ofBits φ acc) (fun k => src (ix2 i k)) :=
  (Ideal.multiReduction_maximumf_single src acc h hφ hacc (ix1 i)).trans
    (congrArg (fun f => Finset.fold max (FloatOps.ofBits φ acc) f Finset.univ) (funext fun k => congrArg src (funext fun c => Fin.ext (by
      match c with
      | ⟨0, _⟩ => rfl
      | ⟨1, _⟩ => rfl))))

/-- A biased score of the tile. -/
def tileScore (a : Vec Ideal S5000x7 .f32) (b : Vec Ideal S1x7 .f32) (p : Fin 5000) (c : Fin 7) : EReal :=
  a (ix2 p c) + b (ix2 (0 : Fin 1) c)

/-- The largest score of a row of the tile. -/
def tileMax (a : Vec Ideal S5000x7 .f32) (b : Vec Ideal S1x7 .f32) (p : Fin 5000) : EReal :=
  (Finset.univ : Finset (Fin 7)).fold max ⊥ (tileScore a b p)

/-- The tile's entry: the shifted score minus the logarithm of the row's sum of shifted exponentials. -/
theorem pay3_apply (a : Vec Ideal S5000x7 .f32) (b : Vec Ideal S1x7 .f32) (p : Fin 5000) (q : Fin 7) :
    k3_pay1 (F := Ideal) a b (ix2 p q)
      = (tileScore a b p q - tileMax a b p) - Ideal.log (∑ c : Fin 7, Ideal.exp (tileScore a b p c - tileMax a b p)) := by
  unfold k3_pay1
  simp only [shapeCast_self]
  generalize hz : addf (F := Ideal) a (broadcastTo S5000x7 b broadcasts_S1x7_S5000x7) = z
  have hzc : ∀ c : Fin 7, z (ix2 p c) = tileScore a b p c := fun c => by
    rw [← hz, addf_apply, broadcastTo_1b_ab_apply]; rfl
  have hm : shapeCast S5000x1 (multiReduction .maximumf [1] S5000 z 0xFF800000#32 reduces_S5000x7_S5000 (.inl rfl) rfl) shapeCasts_S5000_S5000x1 (ix2 p (0 : Fin 1))
      = tileMax a b p := by
    refine (Cert.Lib.Column.shapeCast_a_a1_apply _ _ p 0).trans ?_
    refine (rowMax_apply z _ reduces_S5000x7_S5000 _ _ p).trans ?_
    unfold tileMax
    show Finset.fold max (Ideal.ofBits .f32 0xFF800000#32) _ _ = _
    rw [ofBits_neg_inf]
    exact congrArg (fun f => Finset.fold max ⊥ f Finset.univ) (funext hzc)
  rw [subf_apply, subf_apply, Cert.Lib.Column.broadcastTo_a1_ab_apply, Cert.Lib.Column.broadcastTo_a1_ab_apply, hm, hzc]
  refine congrArg (fun t => tileScore a b p q - tileMax a b p - t) ?_
  show Ideal.log (shapeCast S5000x1 _ shapeCasts_S5000_S5000x1 (ix2 p (0 : Fin 1))) = _
  refine congrArg Ideal.log ?_
  refine (Cert.Lib.Column.shapeCast_a_a1_apply _ _ p 0).trans ?_
  refine (Cert.Lib.Column.rowSum_apply _ _ reduces_S5000x7_S5000 _ _ p).trans ?_
  refine Finset.sum_congr rfl fun c _ => ?_
  show Ideal.exp (subf z _ (ix2 p c)) = _
  rw [subf_apply, Cert.Lib.Column.broadcastTo_a1_ab_apply, hm, hzc]

end Cert.KernelIdeal.Val

end
-- ==== Proof.Region3.lean ====
/-
  The bias-and-log-softmax stage as the tiled kernel computes it. Point `t` of the 20-point grid reads rows
  `5000 t … 5000 t + 4999` of the aggregated scores and the whole `[1, 7]` bias row and writes the same rows of the
  result. The stage works row by row — a row's largest score, its sum of shifted exponentials — and a tile holds whole
  rows, so a tile's entry `(p, q)` is entry `(5000 t + p, q)` of the whole-array function; the twenty row blocks tile the
  result.
-/
import proofs.«108796_j22582938042866_1_alg».proof.Proof.Gen.KernelIdeal.Frame
import proofs.«108796_j22582938042866_1_alg».proof.Proof.Tile3
import proofs.«108796_j22582938042866_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- Where each window's block sits at point `t`. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row block of the aggregated scores at point `t`, entry `(p, q)`, is entry `(5000 t + p, q)` of the array. -/
theorem ablk3_apply (c : Dev nD) (t : Fin cfg3.N) (y : S5000x7.Idx) (i : S100000x7.Idx)
    (h0 : (i 0).val = 5000 * t.val + (y 0).val) (h1 : (i 1).val = (y 1).val) :
    (iblk3 V c 0 t : Vec Ideal S5000x7 .f32) y = (V c main_v59 : S100000x7.Idx → EReal) i := by
  obtain ⟨e0, e1, -, -, -, -⟩ := idx3 t
  unfold iblk3
  rw [View.read_apply]
  show (V c main_v59 : S100000x7.Idx → EReal) _ = _
  refine congrArg _ (funext fun a => Fin.ext ?_)
  match a with
  | ⟨0, _⟩ => show win3_0.index t 0 * 5000 + 1 * (y 0).val = (i 0).val; rw [e0, h0]; omega
  | ⟨1, _⟩ => show win3_0.index t 1 * 7 + 1 * (y 1).val = (i 1).val; rw [e1, h1]; omega

/-- The bias row's block at every point is the whole row. -/
theorem bblk3_apply (c : Dev nD) (t : Fin cfg3.N) (y : S1x7.Idx) :
    (iblk3 V c 1 t : Vec Ideal S1x7 .f32) y = (V c main_v60 : S1x7.Idx → EReal) y := by
  obtain ⟨-, -, e2, e3, -, -⟩ := idx3 t
  unfold iblk3
  rw [View.read_apply]
  show (V c main_v60 : S1x7.Idx → EReal) _ = _
  refine congrArg _ (funext fun a => Fin.ext ?_)
  match a with
  | ⟨0, _⟩ => show win3_1.index t 0 * 1 + 1 * (y 0).val = (y 0).val; rw [e2]; omega
  | ⟨1, _⟩ => show win3_1.index t 1 * 7 + 1 * (y 1).val = (y 1).val; rw [e3]; omega

/-- What point `t` writes back is block `t` of the whole-array function. -/
theorem flushed3 (c : Dev nD) (t : Fin cfg3.N) :
    (dat3 V c).flushed 2 t = ((cfg3.win 2).blk t).view.read (Elt Ideal) (Spec.biasLogSoftmax (V c main_v59) (V c main_v60)) := by
  show (cfg3.win 2).cut (grid3.coords t) ((dat3 V c).after 2 t) = _
  rw [after3_2]
  unfold out3_2
  rw [View.canon_unit_zero hz3]
  simp only [View.ld_unit_zero (S := S5000x7) hz3, View.ld_unit_zero (S := S1x7) hz3]
  obtain ⟨-, -, -, -, e4, e5⟩ := idx3 t
  funext j
  show k3_pay1 (F := Ideal) (iblk3 V c 0 t) (iblk3 V c 1 t) j = Spec.biasLogSoftmax (V c main_v59) (V c main_v60) (((cfg3.win 2).blk t).view.emb j)
  obtain ⟨p, q, rfl⟩ : ∃ (p : Fin 5000) (q : Fin 7), j = ix2 p q := ⟨j 0, j 1, eq_ix2 j⟩
  refine (pay3_apply _ _ p q).trans ?_
  generalize he : ((cfg3.win 2).blk t).view.emb (ix2 p q) = e
  have hr : (e 0).val = 5000 * t.val + p.val := by
    rw [← he]; show win3_2.index t 0 * 5000 + 1 * p.val = _; rw [e4]; omega
  have hc : (e 1).val = q.val := by
    rw [← he]; show win3_2.index t 1 * 7 + 1 * q.val = _; rw [e5]; omega
  have hs : ∀ k : Fin 7, tileScore (iblk3 V c 0 t) (iblk3 V c 1 t) p k = Spec.scoreRow (V c main_v59) (V c main_v60) (e 0) k := fun k => by
    unfold tileScore Spec.scoreRow
    rw [ablk3_apply V c t (ix2 p k) (ix2 (e 0) k) hr rfl, bblk3_apply V c t (ix2 (0 : Fin 1) k)]
  have hM : tileMax (iblk3 V c 0 t) (iblk3 V c 1 t) p = Spec.rowMax (V c main_v59) (V c main_v60) (e 0) := by
    unfold tileMax Spec.rowMax
    exact congrArg (fun f => Finset.fold max ⊥ f Finset.univ) (funext hs)
  have hq : e 1 = q := Fin.ext hc
  unfold Spec.biasLogSoftmax Spec.rowLogSum
  simp only [hM, hs, hq]

/-- An index of the result is in point `t`'s block iff each coordinate is in the block's range. -/
theorem mem_blk3 (t : Fin cfg3.N) (i : S100000x7.Idx) :
    i ∈ ((cfg3.win 2).blk t).view.set ↔ ∀ a : Fin 2, win3_2.index t a * S5000x7.size a ≤ (i a).val ∧ (i a).val < win3_2.index t a * S5000x7.size a + S5000x7.size a := by
  show i ∈ ((View.whole main_v61).slice (win3_2.rect t)).set ↔ _
  rw [View.set_slice_whole, Rect.mem_set_unit]
  exact Iff.rfl

/-- Row `r` of the result is written by point `r / 5000`. -/
theorem cover3 (i : S100000x7.Idx) : ∃ t : Fin cfg3.N, (cfg3.win 2).flush t = true ∧ i ∈ ((cfg3.win 2).blk t).view.set := by
  have hi0 : (i 0).val < 100000 := (i 0).isLt
  have hi1 : (i 1).val < 7 := (i 1).isLt
  have hN : cfg3.N = 20 := N_3
  have ht : (i 0).val / 5000 < cfg3.N := by rw [hN]; omega
  obtain ⟨-, -, -, -, e4, e5⟩ := idx3 ⟨(i 0).val / 5000, ht⟩
  refine ⟨⟨(i 0).val / 5000, ht⟩, flush3_2 _, ?_⟩
  rw [mem_blk3]
  intro a
  match a with
  | ⟨0, _⟩ =>
    show win3_2.index ⟨(i 0).val / 5000, ht⟩ 0 * 5000 ≤ (i 0).val ∧ (i 0).val < win3_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ 1 * 7 ≤ (i 1).val ∧ (i 1).val < win3_2.index ⟨(i 0).val / 5000, ht⟩ 1 * 7 + 7
    rw [e5]; omega

/-- After the region the result array holds the whole-array function of the arrays the region found. -/
theorem arr3 (c : Dev nD) : (dat3 V c).arrAt 2 cfg3.N = Spec.biasLogSoftmax (V c main_v59) (V c main_v60) :=
  (dat3 V c).arrAt_eq_of_cover 2 _ (fun t _ => flushed3 V c t) cover3

end Cert.KernelIdeal.Val

end
-- ==== Proof.HostK.lean ====
/-
  The host computations between the kernels, read as values. The kernel program and the reference prepare the graph in
  the same way — the edge list with self loops appended (`row`, `col`), the degrees by a scatter-add of ones, the
  symmetric normalisation `rsqrt(deg[row]) · rsqrt(deg[col])` — and aggregate in the same way: gather the transformed
  features at `row`, scale by the normalisation, scatter-add at `col`. Each stretch of host operations of the kernel
  program is read here from ANY contents `Wv` of the buffers it starts from: the buffer a stretch ends in holds the
  reference's stage of the same name, whenever the buffers it reads hold the reference's stages; buffers a stretch does
  not write keep their contents.
-/
import proofs.«108796_j22582938042866_1_alg».proof.Proof.Gen.KernelIdeal.Launch
import proofs.«108796_j22582938042866_1_alg».proof.Proof.RefRead
import proofs.«108796_j22582938042866_1_alg».proof.Proof.Spec
import Idealize.ShloMosaic.Lib.StableHlo.Run
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.StableHlo (after nullary_result' unary_result' binary_result' ternary_result' quaternary_result' reshape_result' nary4_result' nary_result' unaryIndexed_result' binaryIndexed_result' nullary_result_ne' unary_result_ne' binary_result_ne' ternary_result_ne' quaternary_result_ne' reshape_result_ne' nary_result_ne' unaryIndexed_result_ne' binaryIndexed_result_ne')
open Cert.ReferenceIdeal.ReadP

variable (Wv : Valuation τ sig (Elt Ideal))

/-! ## The first stretch: edges with self loops, degrees -/

theorem s0_v3 : after hostOps0 Wv (Proc.devRef .tc main_v3) = val_main_v3 (F := Ideal) (Wv (Proc.devRef .tc main_arg1)) := by
  unfold hostOps0; after_results; rfl
theorem s0_v6 : after hostOps0 Wv (Proc.devRef .tc main_v6) = val_main_v6 (F := Ideal) (Wv (Proc.devRef .tc main_arg1)) := by
  unfold hostOps0; after_results; rfl
theorem s0_v12 : after hostOps0 Wv (Proc.devRef .tc main_v12) = val_main_v12 (F := Ideal) (Wv (Proc.devRef .tc main_arg1)) := by
  unfold hostOps0; after_results; rfl
theorem s0_v13 : after hostOps0 Wv (Proc.devRef .tc main_v13) = val_main_v13 (F := Ideal) (Wv (Proc.devRef .tc main_arg1)) := by
  unfold hostOps0; after_results; rfl
theorem s0_cst2 : after hostOps0 Wv (Proc.devRef .tc main_cst_2) = val_main_cst_2 (F := Ideal) := by
  unfold hostOps0; after_results; rfl

/-- The first stretch leaves the arguments alone. -/
theorem s0_arg0 : after hostOps0 Wv (Proc.devRef .tc main_arg0) = Wv (Proc.devRef .tc main_arg0) := by
  unfold hostOps0; after_results
theorem s0_arg1 : after hostOps0 Wv (Proc.devRef .tc main_arg1) = Wv (Proc.devRef .tc main_arg1) := by
  unfold hostOps0; after_results
theorem s0_arg2 : after hostOps0 Wv (Proc.devRef .tc main_arg2) = Wv (Proc.devRef .tc main_arg2) := by
  unfold hostOps0; after_results
theorem s0_arg3 : after hostOps0 Wv (Proc.devRef .tc main_arg3) = Wv (Proc.devRef .tc main_arg3) := by
  unfold hostOps0; after_results
theorem s0_arg4 : after hostOps0 Wv (Proc.devRef .tc main_arg4) = Wv (Proc.devRef .tc main_arg4) := by
  unfold hostOps0; after_results
theorem s0_arg5 : after hostOps0 Wv (Proc.devRef .tc main_arg5) = Wv (Proc.devRef .tc main_arg5) := by
  unfold hostOps0; after_results

/-! ## The call of `where`: the inverse square root of a positive degree, zero elsewhere -/

theorem s01_v14 (x1 : (⟨Cert.ReferenceIdeal.S2x3200000, .i32⟩ : BufTy).Contents (Elt Ideal))
    (h12 : Wv (Proc.devRef .tc main_v12) = val_main_v12 (F := Ideal) x1) (h13 : Wv (Proc.devRef .tc main_v13) = val_main_v13 (F := Ideal) x1)
    (hc : Wv (Proc.devRef .tc main_cst_2) = val_main_cst_2 (F := Ideal)) :
    after hostOps0_1 Wv (Proc.devRef .tc main_v14) = val_main_v14 (F := Ideal) x1 := by
  unfold hostOps0_1; after_results
  simp only [StableHlo.TRef.ofBuf, StableHlo.TRef.toBuf, cast_eq]
  rw [h12, h13, hc]; rfl
theorem s01_v3 : after hostOps0_1 Wv (Proc.devRef .tc main_v3) = Wv (Proc.devRef .tc main_v3) := by
  unfold hostOps0_1; after_results
theorem s01_v6 : after hostOps0_1 Wv (Proc.devRef .tc main_v6) = Wv (Proc.devRef .tc main_v6) := by
  unfold hostOps0_1; after_results
theorem s01_arg0 : after hostOps0_1 Wv (Proc.devRef .tc main_arg0) = Wv (Proc.devRef .tc main_arg0) := by
  unfold hostOps0_1; after_results
theorem s01_arg1 : after hostOps0_1 Wv (Proc.devRef .tc main_arg1) = Wv (Proc.devRef .tc main_arg1) := by
  unfold hostOps0_1; after_results
theorem s01_arg2 : after hostOps0_1 Wv (Proc.devRef .tc main_arg2) = Wv (Proc.devRef .tc main_arg2) := by
  unfold hostOps0_1; after_results
theorem s01_arg3 : after hostOps0_1 Wv (Proc.devRef .tc main_arg3) = Wv (Proc.devRef .tc main_arg3) := by
  unfold hostOps0_1; after_results
theorem s01_arg4 : after hostOps0_1 Wv (Proc.devRef .tc main_arg4) = Wv (Proc.devRef .tc main_arg4) := by
  unfold hostOps0_1; after_results
theorem s01_arg5 : after hostOps0_1 Wv (Proc.devRef .tc main_arg5) = Wv (Proc.devRef .tc main_arg5) := by
  unfold hostOps0_1; after_results

/-! ## The normalisation of every edge -/

set_option maxHeartbeats 2000000 in
theorem s02_v29 (x1 : (⟨Cert.ReferenceIdeal.S2x3200000, .i32⟩ : BufTy).Contents (Elt Ideal))
    (h3 : Wv (Proc.devRef .tc main_v3) = val_main_v3 (F := Ideal) x1) (h6 : Wv (Proc.devRef .tc main_v6) = val_main_v6 (F := Ideal) x1)
    (h14 : Wv (Proc.devRef .tc main_v14) = val_main_v14 (F := Ideal) x1) :
    after hostOps0_2 Wv (Proc.devRef .tc main_v29) = val_main_v29 (F := Ideal) x1 := by
  unfold hostOps0_2; after_results_simp
  rw [h3, h6, h14]; rfl
theorem s02_v3 : after hostOps0_2 Wv (Proc.devRef .tc main_v3) = Wv (Proc.devRef .tc main_v3) := by
  unfold hostOps0_2; after_results
theorem s02_v6 : after hostOps0_2 Wv (Proc.devRef .tc main_v6) = Wv (Proc.devRef .tc main_v6) := by
  unfold hostOps0_2; after_results
theorem s02_arg0 : after hostOps0_2 Wv (Proc.devRef .tc main_arg0) = Wv (Proc.devRef .tc main_arg0) := by
  unfold hostOps0_2; after_results
theorem s02_arg1 : after hostOps0_2 Wv (Proc.devRef .tc main_arg1) = Wv (Proc.devRef .tc main_arg1) := by
  unfold hostOps0_2; after_results
theorem s02_arg2 : after hostOps0_2 Wv (Proc.devRef .tc main_arg2) = Wv (Proc.devRef .tc main_arg2) := by
  unfold hostOps0_2; after_results
theorem s02_arg3 : after hostOps0_2 Wv (Proc.devRef .tc main_arg3) = Wv (Proc.devRef .tc main_arg3) := by
  unfold hostOps0_2; after_results
theorem s02_arg4 : after hostOps0_2 Wv (Proc.devRef .tc main_arg4) = Wv (Proc.devRef .tc main_arg4) := by
  unfold hostOps0_2; after_results
theorem s02_arg5 : after hostOps0_2 Wv (Proc.devRef .tc main_arg5) = Wv (Proc.devRef .tc main_arg5) := by
  unfold hostOps0_2; after_results

/-! ## The first aggregation -/

set_option maxHeartbeats 2000000 in
theorem s1_v43 (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S512x16, .f32⟩ : BufTy).Contents (Elt Ideal))
    (h3 : Wv (Proc.devRef .tc main_v3) = val_main_v3 (F := Ideal) x1) (h6 : Wv (Proc.devRef .tc main_v6) = val_main_v6 (F := Ideal) x1)
    (h29 : Wv (Proc.devRef .tc main_v29) = val_main_v29 (F := Ideal) x1) (h30 : Wv (Proc.devRef .tc main_v30) = val_main_v30 (F := Ideal) x0 x2) :
    after hostOps1 Wv (Proc.devRef .tc main_v43) = val_main_v43 (F := Ideal) x0 x1 x2 := by
  unfold hostOps1; after_results_simp
  rw [h3, h6, h29, h30]; rfl

/-- The bias vector recast as a row. -/
theorem s1_v44 : after hostOps1 Wv (Proc.devRef .tc main_v44) = Spec.asRow (Wv (Proc.devRef .tc main_arg3)) := by
  unfold hostOps1; after_results
  funext i
  obtain ⟨u, q, rfl⟩ : ∃ (u : Fin 1) (q : Fin 16), i = ix2 u q := ⟨i 0, i 1, eq_ix2 i⟩
  exact shapeCast_a_1a_apply _ _ u q
theorem s1_v3 : after hostOps1 Wv (Proc.devRef .tc main_v3) = Wv (Proc.devRef .tc main_v3) := by
  unfold hostOps1; after_results
theorem s1_v6 : after hostOps1 Wv (Proc.devRef .tc main_v6) = Wv (Proc.devRef .tc main_v6) := by
  unfold hostOps1; after_results
theorem s1_v29 : after hostOps1 Wv (Proc.devRef .tc main_v29) = Wv (Proc.devRef .tc main_v29) := by
  unfold hostOps1; after_results
theorem s1_arg0 : after hostOps1 Wv (Proc.devRef .tc main_arg0) = Wv (Proc.devRef .tc main_arg0) := by
  unfold hostOps1; after_results
theorem s1_arg1 : after hostOps1 Wv (Proc.devRef .tc main_arg1) = Wv (Proc.devRef .tc main_arg1) := by
  unfold hostOps1; after_results
theorem s1_arg2 : after hostOps1 Wv (Proc.devRef .tc main_arg2) = Wv (Proc.devRef .tc main_arg2) := by
  unfold hostOps1; after_results
theorem s1_arg3 : after hostOps1 Wv (Proc.devRef .tc main_arg3) = Wv (Proc.devRef .tc main_arg3) := by
  unfold hostOps1; after_results
theorem s1_arg4 : after hostOps1 Wv (Proc.devRef .tc main_arg4) = Wv (Proc.devRef .tc main_arg4) := by
  unfold hostOps1; after_results
theorem s1_arg5 : after hostOps1 Wv (Proc.devRef .tc main_arg5) = Wv (Proc.devRef .tc main_arg5) := by
  unfold hostOps1; after_results

/-! ## The second aggregation -/

set_option maxHeartbeats 2000000 in
theorem s3_v59 (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S512x16, .f32⟩ : BufTy).Contents (Elt Ideal)) (x3 : (⟨Cert.ReferenceIdeal.S16, .f32⟩ : BufTy).Contents (Elt Ideal))
    (x4 : (⟨Cert.ReferenceIdeal.S16x7, .f32⟩ : BufTy).Contents (Elt Ideal))
    (h3 : Wv (Proc.devRef .tc main_v3) = val_main_v3 (F := Ideal) x1) (h6 : Wv (Proc.devRef .tc main_v6) = val_main_v6 (F := Ideal) x1)
    (h29 : Wv (Proc.devRef .tc main_v29) = val_main_v29 (F := Ideal) x1) (h46 : Wv (Proc.devRef .tc main_v46) = val_main_v48 (F := Ideal) x0 x1 x2 x3 x4) :
    after hostOps3 Wv (Proc.devRef .tc main_v59) = val_main_v61 (F := Ideal) x0 x1 x2 x3 x4 := by
  unfold hostOps3; after_results_simp
  rw [h3, h6, h29, h46]; rfl

/-- The second bias vector recast as a row. -/
theorem s3_v60 : after hostOps3 Wv (Proc.devRef .tc main_v60) = Spec.asRow (Wv (Proc.devRef .tc main_arg5)) := by
  unfold hostOps3; after_results
  funext i
  obtain ⟨u, q, rfl⟩ : ∃ (u : Fin 1) (q : Fin 7), i = ix2 u q := ⟨i 0, i 1, eq_ix2 i⟩
  exact shapeCast_a_1a_apply _ _ u q
theorem s3_arg0 : after hostOps3 Wv (Proc.devRef .tc main_arg0) = Wv (Proc.devRef .tc main_arg0) := by
  unfold hostOps3; after_results
theorem s3_arg1 : after hostOps3 Wv (Proc.devRef .tc main_arg1) = Wv (Proc.devRef .tc main_arg1) := by
  unfold hostOps3; after_results
theorem s3_arg2 : after hostOps3 Wv (Proc.devRef .tc main_arg2) = Wv (Proc.devRef .tc main_arg2) := by
  unfold hostOps3; after_results
theorem s3_arg3 : after hostOps3 Wv (Proc.devRef .tc main_arg3) = Wv (Proc.devRef .tc main_arg3) := by
  unfold hostOps3; after_results
theorem s3_arg4 : after hostOps3 Wv (Proc.devRef .tc main_arg4) = Wv (Proc.devRef .tc main_arg4) := by
  unfold hostOps3; after_results
theorem s3_arg5 : after hostOps3 Wv (Proc.devRef .tc main_arg5) = Wv (Proc.devRef .tc main_arg5) := by
  unfold hostOps3; after_results

end Cert.KernelIdeal.Val

end
-- ==== Proof.RefDense.lean ====
/-
  The reference's two matrix products as the whole-array sums of the specification: `x @ W` on the host is, entry by
  entry, the sum over the contracted index of the products of a row's and a column's entries.
-/
import proofs.«108796_j22582938042866_1_alg».proof.Proof.RefRead
import proofs.«108796_j22582938042866_1_alg».proof.Proof.Spec
import Idealize.ShloMosaic.Lib.ValueIdx

noncomputable section

namespace Cert.ReferenceIdeal.Bridge

open Cert.ReferenceIdeal Cert.ReferenceIdeal.ReadP Idealize.ShloMosaic Idealize.ShloMosaic.ValueIdx

/-- The first layer's `x @ W1`. -/
theorem dense1_stage (x0 : (⟨S100000x512, .f32⟩ : BufTy).Contents (Elt Ideal)) (x2 : (⟨S512x16, .f32⟩ : BufTy).Contents (Elt Ideal)) :
    val_main_v30 (F := Ideal) x0 x2 = Cert.Spec.dense1 x0 x2 := by
  funext i
  rw [val_main_v30_apply]
  unfold Cert.Spec.dense1
  refine Finset.sum_congr rfl fun k _ => ?_
  have el : lidx_main_v30 i k = ix2 (i 0) k := funext fun a => Fin.ext (by
    match a with
    | ⟨0, _⟩ => rfl
    | ⟨1, _⟩ => rfl)
  have er : ridx_main_v30 i k = ix2 k (i 1) := funext fun a => Fin.ext (by
    match a with
    | ⟨0, _⟩ => rfl
    | ⟨1, _⟩ => rfl)
  rw [el, er]
  rfl

/-- The second layer's `h @ W2`, of whatever the hidden activations are. -/
theorem dense2_stage (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal)) (x4 : (⟨S16x7, .f32⟩ : BufTy).Contents (Elt Ideal)) :
    val_main_v48 (F := Ideal) x0 x1 x2 x3 x4 = Cert.Spec.dense2 (val_main_v47 (F := Ideal) x0 x1 x2 x3) x4 := by
  funext i
  rw [val_main_v48_apply]
  unfold Cert.Spec.dense2
  refine Finset.sum_congr rfl fun k _ => ?_
  have el : lidx_main_v48 i k = ix2 (i 0) k := funext fun a => Fin.ext (by
    match a with
    | ⟨0, _⟩ => rfl
    | ⟨1, _⟩ => rfl)
  have er : ridx_main_v48 i k = ix2 k (i 1) := funext fun a => Fin.ext (by
    match a with
    | ⟨0, _⟩ => rfl
    | ⟨1, _⟩ => rfl)
  rw [el, er]
  rfl

end Cert.ReferenceIdeal.Bridge

end
-- ==== Proof.RefRows.lean ====
import proofs.«108796_j22582938042866_1_alg».proof.Proof.RefRead
import proofs.«108796_j22582938042866_1_alg».proof.Proof.Spec
import Idealize.ShloMosaic.Lib.ValueIdx
import Idealize.ShloMosaic.Lib.ValueLayout
import Idealize.ShloMosaic.PureOps.Ideal.Laws

noncomputable section
namespace Cert.ReferenceIdeal.Bridge
open Cert.ReferenceIdeal Cert.ReferenceIdeal.ReadP Idealize.ShloMosaic Idealize.ShloMosaic.ValueIdx

/-!
  The two dense stretches of the reference that follow a neighbour aggregation, read entry by entry on the extended
  reals and identified with the specification's functions of whole arrays. The aggregated array is an opaque operand
  throughout: nothing here depends on what it holds.

  * first layer: entry (p, q) is `max (a[p, q] + b[q]) 0`;
  * second layer: with `z[p, q] = a[p, q] + b[q]`, `M p` the fold of `max` from `⊥` over row `p` of `z`, and
    `L p = log (0 + ∑ k, exp (z[p, k] - M p))`, entry (p, q) is `(z[p, q] - M p) - L p`. The reference takes one more
    maximum of `M p` with `-∞`, which changes nothing.
-/

/-! ## The first layer: bias along rows, then the positive part -/

/-- The reference's first layer after aggregation: bias added along rows, then the positive part. -/
theorem relu_stage (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) :
    val_main_v47 (F := Ideal) x0 x1 x2 x3 = Cert.Spec.biasRelu (val_main_v43 (F := Ideal) x0 x1 x2) (Cert.Spec.asRow x3) := by
  funext i
  obtain ⟨p, q, rfl⟩ : ∃ (p : Fin 100000) (q : Fin 16), i = ix2 p q := ⟨i 0, i 1, eq_ix2 i⟩
  rw [val_main_v47_apply, val_main_v46_apply, val_main_v45_apply, val_main_v44_apply, val_main_call1_v0_apply,
    val_main_call1_cst_apply]
  generalize val_main_v43 (F := Ideal) x0 x1 x2 = a
  -- the bias is broadcast to one row and then down the rows: entry (p, q) reads the vector at q
  have hq : idx_main_v44 (idx_main_v45 (ix2 p q)) = ix1 q :=
    funext fun c => Fin.ext (by match c with | ⟨0, _⟩ => rfl)
  rw [hq]
  unfold Cert.Spec.biasRelu Cert.Spec.asRow
  show max (a (ix2 p q) + x3 (ix1 q)) (Ideal.ofBits .f32 0x00000000#32) = max (a (ix2 p q) + x3 (ix1 q)) 0
  rw [Ideal.ofBits_zero_f32]

/-! ## The second layer: bias along rows, then the row-wise log-softmax -/

/-- The f32 word of −∞ is the least extended real. -/
theorem ofBits_negInf_f32 : Ideal.ofBits .f32 0xFF800000#32 = (⊥ : EReal) := by
  simp [Ideal.ofBits, Ideal.ieee]

/-- Row `p` with column `k` put back on the dropped second axis is the index (p, k). -/
theorem lift_row (h : (⟨2, ![100000, 7]⟩ : Shape).Reduces [1] (⟨1, ![100000]⟩ : Shape)) (p : Fin 100000)
    (k : Fin ((⟨2, ![100000, 7]⟩ : Shape).size 1)) : h.lift (ix1 p) k = ix2 p (⟨k.val, k.isLt⟩ : Fin 7) := by
  funext c; apply Fin.ext
  fin_cases c <;> rfl

/-- From an initial value that is −∞, the maximum over the second axis of a [100000, 7] array whose entry (p, q) is
    `f p q` is, at row `p`, the fold of `max` from `⊥` over that row's seven entries. -/
theorem rowReduceMax (z : (⟨2, ![100000, 7]⟩ : Shape).Idx → EReal) (f : Fin 100000 → Fin 7 → EReal)
    (hz : ∀ p q, z (ix2 p q) = f p q) (init : (⟨0, ![]⟩ : Shape).Idx → EReal)
    (h' : (⟨2, ![100000, 7]⟩ : Shape).ReducesTo [1] (⟨1, ![100000]⟩ : Shape)) (hu : 0 < (⟨0, ![]⟩ : Shape).numel)
    (hi : init (Shape.Idx.first hu) = ⊥) (p : Fin 100000) :
    Host.reduce (FloatOps.maximumf (F := Ideal) (φ := .f32)) z init h' hu (ix1 p)
      = (Finset.univ : Finset (Fin 7)).fold max ⊥ (f p) := by
  have h : (⟨2, ![100000, 7]⟩ : Shape).Reduces [1] (⟨1, ![100000]⟩ : Shape) := by decide
  rw [Host.reduce_eq_fold_single (FloatOps.maximumf (F := Ideal) (φ := .f32)) z init h' h hu, hi]
  have hf : (z ∘ h.lift (ix1 p)) = fun k : Fin 7 => f p k :=
    funext fun k => (congrArg z (lift_row h p k)).trans (hz p _)
  exact congrArg (fun g => Finset.fold max (⊥ : EReal) g (Finset.univ : Finset (Fin 7))) hf

section LogSoftmax
variable (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x7, .f32⟩ : BufTy).Contents (Elt Ideal)) (x5 : (⟨S7, .f32⟩ : BufTy).Contents (Elt Ideal))

/-- The biased scores: entry (p, q) of the aggregated array plus the bias at q. -/
theorem score_apply (p : Fin 100000) (q : Fin 7) :
    val_main_v64 (F := Ideal) x0 x1 x2 x3 x4 x5 (ix2 p q) = Cert.Spec.scoreRow (val_main_v61 (F := Ideal) x0 x1 x2 x3 x4) (Cert.Spec.asRow x5) p q := by
  rw [val_main_v64_apply, val_main_v63_apply, val_main_v62_apply]
  generalize val_main_v61 (F := Ideal) x0 x1 x2 x3 x4 = a
  have hq : idx_main_v62 (idx_main_v63 (ix2 p q)) = ix1 q :=
    funext fun c => Fin.ext (by match c with | ⟨0, _⟩ => rfl)
  rw [hq]
  rfl

/-- The row's largest score: the reduction from −∞ over the second axis, and one more maximum with −∞. -/
theorem rowmax_apply (p : Fin 100000) :
    val_main_call2_v2 (F := Ideal) x0 x1 x2 x3 x4 x5 (ix1 p) = Cert.Spec.rowMax (val_main_v61 (F := Ideal) x0 x1 x2 x3 x4) (Cert.Spec.asRow x5) p := by
  rw [val_main_call2_v2_apply, val_main_call2_v1_apply, val_main_call2_cst_0_apply]
  have h0 : val_main_call2_v0 (F := Ideal) x0 x1 x2 x3 x4 x5 (ix1 p) = Cert.Spec.rowMax (val_main_v61 (F := Ideal) x0 x1 x2 x3 x4) (Cert.Spec.asRow x5) p := by
    unfold val_main_call2_v0 Cert.Spec.rowMax
    exact rowReduceMax (val_main_v64 (F := Ideal) x0 x1 x2 x3 x4 x5) (Cert.Spec.scoreRow (val_main_v61 (F := Ideal) x0 x1 x2 x3 x4) (Cert.Spec.asRow x5))
      (score_apply x0 x1 x2 x3 x4 x5) (val_main_call2_cst (F := Ideal)) _ _
      ((val_main_call2_cst_apply (F := Ideal) _).trans ofBits_negInf_f32) p
  rw [h0]
  show max (Ideal.ofBits .f32 0xFF800000#32) _ = _
  rw [ofBits_negInf_f32, max_bot_left]

/-- A score less its row's largest. -/
theorem shifted_apply (p : Fin 100000) (q : Fin 7) :
    val_main_call2_v5 (F := Ideal) x0 x1 x2 x3 x4 x5 (ix2 p q)
      = Cert.Spec.scoreRow (val_main_v61 (F := Ideal) x0 x1 x2 x3 x4) (Cert.Spec.asRow x5) p q - Cert.Spec.rowMax (val_main_v61 (F := Ideal) x0 x1 x2 x3 x4) (Cert.Spec.asRow x5) p := by
  rw [val_main_call2_v5_apply, val_main_call2_v4_apply, val_main_call2_v3_apply]
  -- the row maxima are broadcast to one column and then along the rows: entry (p, q) reads the vector at p
  have hp : idx_main_call2_v3 (idx_main_call2_v4 (ix2 p q)) = ix1 p :=
    funext fun c => Fin.ext (by match c with | ⟨0, _⟩ => rfl)
  rw [hp, score_apply, rowmax_apply]
  rfl

/-- The logarithm of the row's sum of shifted exponentials, as the one-column array the reference keeps it in. -/
theorem logsum_apply (p : Fin 100000) :
    val_main_call2_v9 (F := Ideal) x0 x1 x2 x3 x4 x5 (ix2 p (0 : Fin 1)) = Cert.Spec.rowLogSum (val_main_v61 (F := Ideal) x0 x1 x2 x3 x4) (Cert.Spec.asRow x5) p := by
  rw [val_main_call2_v9_apply, val_main_call2_v8_apply]
  have hp : idx_main_call2_v8 (ix2 p (0 : Fin 1)) = ix1 p :=
    funext fun c => Fin.ext (by match c with | ⟨0, _⟩ => rfl)
  rw [hp, val_main_call2_v7_apply, val_main_call2_cst_1_apply]
  have hs : ∀ k : Fin 7, val_main_call2_v6 (F := Ideal) x0 x1 x2 x3 x4 x5 (idx_main_call2_v7 (ix1 p) k)
      = Ideal.exp (Cert.Spec.scoreRow (val_main_v61 (F := Ideal) x0 x1 x2 x3 x4) (Cert.Spec.asRow x5) p k - Cert.Spec.rowMax (val_main_v61 (F := Ideal) x0 x1 x2 x3 x4) (Cert.Spec.asRow x5) p) := by
    intro k
    have hk : idx_main_call2_v7 (ix1 p) k = ix2 p k :=
      funext fun c => Fin.ext (by match c with | ⟨0, _⟩ => rfl | ⟨1, _⟩ => rfl)
    rw [hk, val_main_call2_v6_apply, shifted_apply]
    exact Ideal.hostUnary_exp_def _
  rw [Finset.sum_congr rfl fun k _ => hs k, Ideal.hostUnary_log_def, Ideal.ofBits_def, Ideal.ofBits_zero_f32, zero_add]
  rfl

end LogSoftmax

/-- The reference's second layer after aggregation: bias added along rows, then the row-wise log-softmax. -/
theorem logsoftmax_stage (x0 : (⟨S100000x512, .f32⟩ : BufTy).Contents (Elt Ideal)) (x1 : (⟨S2x3200000, .i32⟩ : BufTy).Contents (Elt Ideal)) (x2 : (⟨S512x16, .f32⟩ : BufTy).Contents (Elt Ideal)) (x3 : (⟨S16, .f32⟩ : BufTy).Contents (Elt Ideal)) (x4 : (⟨S16x7, .f32⟩ : BufTy).Contents (Elt Ideal)) (x5 : (⟨S7, .f32⟩ : BufTy).Contents (Elt Ideal)) :
    val_main_v65 (F := Ideal) x0 x1 x2 x3 x4 x5 = Cert.Spec.biasLogSoftmax (val_main_v61 (F := Ideal) x0 x1 x2 x3 x4) (Cert.Spec.asRow x5) := by
  funext i
  obtain ⟨p, q, rfl⟩ : ∃ (p : Fin 100000) (q : Fin 7), i = ix2 p q := ⟨i 0, i 1, eq_ix2 i⟩
  rw [val_main_v65_apply, val_main_call2_v10_apply]
  -- the logarithms are broadcast along the rows: entry (p, q) reads the one column at p
  have h0 : idx_main_call2_v10 (ix2 p q) = ix2 p (0 : Fin 1) :=
    funext fun c => Fin.ext (by match c with | ⟨0, _⟩ => rfl | ⟨1, _⟩ => rfl)
  rw [h0, shifted_apply, logsum_apply]
  rfl

end Cert.ReferenceIdeal.Bridge

end
-- ==== Proof.Compose.lean ====
/-
  The kernel program's result as a value. Its run passes nine boundaries: three stretches of host operations that prepare
  the graph, the first feature transform (a kernel), the first aggregation (host), the bias-and-positive-part kernel, the
  second feature transform (a kernel), the second aggregation (host) and the bias-and-log-softmax kernel. At each
  boundary the buffers that later steps read hold the reference's stages of the same arguments: the prepared graph
  (`row`, `col`, the edge normalisation) and the arguments are carried along unchanged (`Carried`), each kernel's
  result array holds its whole-array function of the arrays it found, which is the reference's operation of the same
  operands, and each aggregation is the reference's own chain of host operations. So the result array ends at the
  reference's last stage of the program's arguments.
-/
import proofs.«108796_j22582938042866_1_alg».proof.Proof.Gen.KernelIdeal.Frame
import proofs.«108796_j22582938042866_1_alg».proof.Proof.Region0
import proofs.«108796_j22582938042866_1_alg».proof.Proof.Region1
import proofs.«108796_j22582938042866_1_alg».proof.Proof.Region2
import proofs.«108796_j22582938042866_1_alg».proof.Proof.Region3
import proofs.«108796_j22582938042866_1_alg».proof.Proof.HostK
import proofs.«108796_j22582938042866_1_alg».proof.Proof.RefDense
import proofs.«108796_j22582938042866_1_alg».proof.Proof.RefRows

set_option maxRecDepth 16384

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)
open Cert.ReferenceIdeal.ReadP Cert.ReferenceIdeal.Bridge

variable (m : (ℓ : Loc nD τ sig) → Buf (Elt Ideal) ℓ) (ρ : Dev nD → PrngReg) (c : Dev nD)

/-- The program's six arguments on core `c`, at the reference's types. -/
abbrev X0 : (⟨Cert.ReferenceIdeal.S100000x512, .f32⟩ : BufTy).Contents (Elt Ideal) := m ((c : Thread nD τ).loc main_arg0)
abbrev X1 : (⟨Cert.ReferenceIdeal.S2x3200000, .i32⟩ : BufTy).Contents (Elt Ideal) := m ((c : Thread nD τ).loc main_arg1)
abbrev X2 : (⟨Cert.ReferenceIdeal.S512x16, .f32⟩ : BufTy).Contents (Elt Ideal) := m ((c : Thread nD τ).loc main_arg2)
abbrev X3 : (⟨Cert.ReferenceIdeal.S16, .f32⟩ : BufTy).Contents (Elt Ideal) := m ((c : Thread nD τ).loc main_arg3)
abbrev X4 : (⟨Cert.ReferenceIdeal.S16x7, .f32⟩ : BufTy).Contents (Elt Ideal) := m ((c : Thread nD τ).loc main_arg4)
abbrev X5 : (⟨Cert.ReferenceIdeal.S7, .f32⟩ : BufTy).Contents (Elt Ideal) := m ((c : Thread nD τ).loc main_arg5)

/-- What every boundary after the graph's preparation carries: the arguments as launched and the prepared graph. -/
structure Carried (Wv : Valuation τ sig (Elt Ideal)) : Prop where
  a0 : Wv (Proc.devRef .tc main_arg0) = X0 m c
  a1 : Wv (Proc.devRef .tc main_arg1) = X1 m c
  a2 : Wv (Proc.devRef .tc main_arg2) = X2 m c
  a3 : Wv (Proc.devRef .tc main_arg3) = X3 m c
  a4 : Wv (Proc.devRef .tc main_arg4) = X4 m c
  a5 : Wv (Proc.devRef .tc main_arg5) = X5 m c
  v3 : Wv (Proc.devRef .tc main_v3) = val_main_v3 (F := Ideal) (X1 m c)
  v6 : Wv (Proc.devRef .tc main_v6) = val_main_v6 (F := Ideal) (X1 m c)
  v29 : Wv (Proc.devRef .tc main_v29) = val_main_v29 (F := Ideal) (X1 m c)

/-- After the three preparing stretches. -/
theorem carried3 : Carried m c (W3 m ρ c) := by
  have h1 : W1 m ρ c (Proc.devRef .tc main_arg1) = X1 m c := s0_arg1 (W0 m ρ c)
  have h2 : W2 m ρ c (Proc.devRef .tc main_arg1) = X1 m c := (s01_arg1 (W1 m ρ c)).trans h1
  have e3 : W1 m ρ c (Proc.devRef .tc main_v3) = val_main_v3 (F := Ideal) (X1 m c) := s0_v3 (W0 m ρ c)
  have e6 : W1 m ρ c (Proc.devRef .tc main_v6) = val_main_v6 (F := Ideal) (X1 m c) := s0_v6 (W0 m ρ c)
  have e14 : W2 m ρ c (Proc.devRef .tc main_v14) = val_main_v14 (F := Ideal) (X1 m c) :=
    s01_v14 (W1 m ρ c) (X1 m c) (s0_v12 (W0 m ρ c)) (s0_v13 (W0 m ρ c)) (s0_cst2 (W0 m ρ c))
  have f3 : W2 m ρ c (Proc.devRef .tc main_v3) = val_main_v3 (F := Ideal) (X1 m c) := (s01_v3 (W1 m ρ c)).trans e3
  have f6 : W2 m ρ c (Proc.devRef .tc main_v6) = val_main_v6 (F := Ideal) (X1 m c) := (s01_v6 (W1 m ρ c)).trans e6
  exact {
    a0 := (s02_arg0 (W2 m ρ c)).trans ((s01_arg0 (W1 m ρ c)).trans (s0_arg0 (W0 m ρ c)))
    a1 := (s02_arg1 (W2 m ρ c)).trans h2
    a2 := (s02_arg2 (W2 m ρ c)).trans ((s01_arg2 (W1 m ρ c)).trans (s0_arg2 (W0 m ρ c)))
    a3 := (s02_arg3 (W2 m ρ c)).trans ((s01_arg3 (W1 m ρ c)).trans (s0_arg3 (W0 m ρ c)))
    a4 := (s02_arg4 (W2 m ρ c)).trans ((s01_arg4 (W1 m ρ c)).trans (s0_arg4 (W0 m ρ c)))
    a5 := (s02_arg5 (W2 m ρ c)).trans ((s01_arg5 (W1 m ρ c)).trans (s0_arg5 (W0 m ρ c)))
    v3 := (s02_v3 (W2 m ρ c)).trans f3
    v6 := (s02_v6 (W2 m ρ c)).trans f6
    v29 := s02_v29 (W2 m ρ c) (X1 m c) f3 f6 e14 }

/-- After the first feature transform: its inputs pass through, everything else is untouched. -/
theorem carried4 : Carried m c (W4 m ρ c) := by
  have h := carried3 m ρ c
  exact {
    a0 := ((W4_arr m ρ c 0).trans (((dat0 (V3 m ρ) c).arrAt_in 0 rfl _).trans (A_eq0 (V3 m ρ) c 0))).trans h.a0
    a1 := (W4_of_ne m ρ c main_arg1 (by decide)).trans h.a1
    a2 := ((W4_arr m ρ c 1).trans (((dat0 (V3 m ρ) c).arrAt_in 1 rfl _).trans (A_eq0 (V3 m ρ) c 1))).trans h.a2
    a3 := (W4_of_ne m ρ c main_arg3 (by decide)).trans h.a3
    a4 := (W4_of_ne m ρ c main_arg4 (by decide)).trans h.a4
    a5 := (W4_of_ne m ρ c main_arg5 (by decide)).trans h.a5
    v3 := (W4_of_ne m ρ c main_v3 (by decide)).trans h.v3
    v6 := (W4_of_ne m ρ c main_v6 (by decide)).trans h.v6
    v29 := (W4_of_ne m ρ c main_v29 (by decide)).trans h.v29 }

/-- The first transform's result is the reference's product. -/
theorem w4_v30 : W4 m ρ c (Proc.devRef .tc main_v30) = val_main_v30 (F := Ideal) (X0 m c) (X2 m c) := by
  have h := carried3 m ρ c
  refine (W4_arr m ρ c 2).trans ((arr0 (V3 m ρ) c).trans ?_)
  rw [dense1_stage]
  exact congrArg₂ Spec.dense1 h.a0 h.a2

/-- After the first aggregation. -/
theorem carried5 : Carried m c (W5 m ρ c) := by
  have h := carried4 m ρ c
  exact {
    a0 := (s1_arg0 (W4 m ρ c)).trans h.a0
    a1 := (s1_arg1 (W4 m ρ c)).trans h.a1
    a2 := (s1_arg2 (W4 m ρ c)).trans h.a2
    a3 := (s1_arg3 (W4 m ρ c)).trans h.a3
    a4 := (s1_arg4 (W4 m ρ c)).trans h.a4
    a5 := (s1_arg5 (W4 m ρ c)).trans h.a5
    v3 := (s1_v3 (W4 m ρ c)).trans h.v3
    v6 := (s1_v6 (W4 m ρ c)).trans h.v6
    v29 := (s1_v29 (W4 m ρ c)).trans h.v29 }

theorem w5_v43 : W5 m ρ c (Proc.devRef .tc main_v43) = val_main_v43 (F := Ideal) (X0 m c) (X1 m c) (X2 m c) :=
  have h := carried4 m ρ c
  s1_v43 (W4 m ρ c) (X0 m c) (X1 m c) (X2 m c) h.v3 h.v6 h.v29 (w4_v30 m ρ c)

theorem w5_v44 : W5 m ρ c (Proc.devRef .tc main_v44) = Spec.asRow (X3 m c) :=
  (s1_v44 (W4 m ρ c)).trans (congrArg Spec.asRow (carried4 m ρ c).a3)

/-- After the bias-and-positive-part kernel. -/
theorem carried6 : Carried m c (W6 m ρ c) := by
  have h := carried5 m ρ c
  exact {
    a0 := (W6_of_ne m ρ c main_arg0 (by decide)).trans h.a0
    a1 := (W6_of_ne m ρ c main_arg1 (by decide)).trans h.a1
    a2 := (W6_of_ne m ρ c main_arg2 (by decide)).trans h.a2
    a3 := (W6_of_ne m ρ c main_arg3 (by decide)).trans h.a3
    a4 := (W6_of_ne m ρ c main_arg4 (by decide)).trans h.a4
    a5 := (W6_of_ne m ρ c main_arg5 (by decide)).trans h.a5
    v3 := (W6_of_ne m ρ c main_v3 (by decide)).trans h.v3
    v6 := (W6_of_ne m ρ c main_v6 (by decide)).trans h.v6
    v29 := (W6_of_ne m ρ c main_v29 (by decide)).trans h.v29 }

/-- The hidden activations are the reference's. -/
theorem w6_v45 : W6 m ρ c (Proc.devRef .tc main_v45) = val_main_v47 (F := Ideal) (X0 m c) (X1 m c) (X2 m c) (X3 m c) := by
  refine (W6_arr m ρ c 2).trans ((arr1 (V5 m ρ) c).trans ?_)
  rw [relu_stage]
  exact congrArg₂ Spec.biasRelu (w5_v43 m ρ c) (w5_v44 m ρ c)

/-- After the second feature transform. -/
theorem carried7 : Carried m c (W7 m ρ c) := by
  have h := carried6 m ρ c
  exact {
    a0 := (W7_of_ne m ρ c main_arg0 (by decide)).trans h.a0
    a1 := (W7_of_ne m ρ c main_arg1 (by decide)).trans h.a1
    a2 := (W7_of_ne m ρ c main_arg2 (by decide)).trans h.a2
    a3 := (W7_of_ne m ρ c main_arg3 (by decide)).trans h.a3
    a4 := ((W7_arr m ρ c 1).trans (((dat2 (V6 m ρ) c).arrAt_in 1 rfl _).trans (A_eq2 (V6 m ρ) c 1))).trans h.a4
    a5 := (W7_of_ne m ρ c main_arg5 (by decide)).trans h.a5
    v3 := (W7_of_ne m ρ c main_v3 (by decide)).trans h.v3
    v6 := (W7_of_ne m ρ c main_v6 (by decide)).trans h.v6
    v29 := (W7_of_ne m ρ c main_v29 (by decide)).trans h.v29 }

theorem w7_v46 : W7 m ρ c (Proc.devRef .tc main_v46) = val_main_v48 (F := Ideal) (X0 m c) (X1 m c) (X2 m c) (X3 m c) (X4 m c) := by
  refine (W7_arr m ρ c 2).trans ((arr2 (V6 m ρ) c).trans ?_)
  rw [dense2_stage]
  exact congrArg₂ Spec.dense2 (w6_v45 m ρ c) (carried6 m ρ c).a4

theorem w8_v59 : W8 m ρ c (Proc.devRef .tc main_v59) = val_main_v61 (F := Ideal) (X0 m c) (X1 m c) (X2 m c) (X3 m c) (X4 m c) :=
  have h := carried7 m ρ c
  s3_v59 (W7 m ρ c) (X0 m c) (X1 m c) (X2 m c) (X3 m c) (X4 m c) h.v3 h.v6 h.v29 (w7_v46 m ρ c)

theorem w8_v60 : W8 m ρ c (Proc.devRef .tc main_v60) = Spec.asRow (X5 m c) :=
  (s3_v60 (W7 m ρ c)).trans (congrArg Spec.asRow (carried7 m ρ c).a5)

/-- The result array at the last boundary is the reference's last stage of the program's arguments. -/
theorem w9_result : W9 m ρ c (Proc.devRef .tc main_v61)
    = val_main_v65 (F := Ideal) (X0 m c) (X1 m c) (X2 m c) (X3 m c) (X4 m c) (X5 m c) := by
  refine (W9_arr m ρ c 2).trans ((arr3 (V8 m ρ) c).trans ?_)
  rw [logsoftmax_stage]
  exact congrArg₂ Spec.biasLogSoftmax (w8_v59 m ρ c) (w8_v60 m ρ c)

end Cert.KernelIdeal.Val

end
-- ==== Proof.lean ====
/-
  The certificate of a two-layer graph convolution whose dense stages run as tiled kernels.

  Both programs prepare the graph identically on the host (edges with self loops, degrees, the symmetric edge
  normalisation) and aggregate neighbours identically (gather, scale, scatter-add). They differ in the dense stages: the
  kernel program computes `x · W1`, `max (agg1 + b1) 0`, `h · W2` and the row-wise `log_softmax (agg2 + b2)` in four
  kernels over twenty row blocks of 5000 rows, the matrix products with operands rounded to bf16; the reference computes
  them in one piece. On the extended reals a rounding is the identity, a tile of a row-wise function of whole rows is the
  function on those rows, and the kernels' shifted log-softmax `(z - M) - log ∑ exp (z - M)` is the reference's own
  formula (whose extra maximum with `-∞` changes nothing). So both result arrays are the same function of the
  arguments, the reference's last stage. No law used needs the inputs to be finite.
-/
import proofs.«108796_j22582938042866_1_alg».proof.Defs
import proofs.«108796_j22582938042866_1_alg».proof.Proof.Gen.Kernel
import proofs.«108796_j22582938042866_1_alg».proof.Proof.Gen.Kernel.Skeleton
import proofs.«108796_j22582938042866_1_alg».proof.Proof.Gen.Kernel.Launch
import proofs.«108796_j22582938042866_1_alg».proof.Proof.Gen.Kernel.Points
import proofs.«108796_j22582938042866_1_alg».proof.Proof.Gen.Kernel.Frame
import proofs.«108796_j22582938042866_1_alg».proof.Proof.Gen.KernelIdeal
import proofs.«108796_j22582938042866_1_alg».proof.Proof.Gen.KernelIdeal.Skeleton
import proofs.«108796_j22582938042866_1_alg».proof.Proof.Gen.KernelIdeal.Launch
import proofs.«108796_j22582938042866_1_alg».proof.Proof.Gen.KernelIdeal.Points
import proofs.«108796_j22582938042866_1_alg».proof.Proof.Gen.KernelIdeal.Frame
import proofs.«108796_j22582938042866_1_alg».proof.Proof.Gen.ReferenceIdeal
import proofs.«108796_j22582938042866_1_alg».proof.Proof.Gen.Pre_finite_inputs
import proofs.«108796_j22582938042866_1_alg».proof.Proof.KRun
import proofs.«108796_j22582938042866_1_alg».proof.Proof.Compose
import proofs.«108796_j22582938042866_1_alg».proof.Proof.RefRun
import proofs.«108796_j22582938042866_1_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both result arrays end at the reference's last stage of the (agreeing) arguments. -/
theorem algebraic : Cert.algebraic_KernelIdeal_ReferenceIdeal := by
  intro m ρ m' ρ' _ hagree
  refine ⟨fun c => Cert.ReferenceIdeal.ReadP.val_main_v65 (F := Ideal) (Cert.KernelIdeal.Val.X0 m c) (Cert.KernelIdeal.Val.X1 m c)
    (Cert.KernelIdeal.Val.X2 m c) (Cert.KernelIdeal.Val.X3 m c) (Cert.KernelIdeal.Val.X4 m c) (Cert.KernelIdeal.Val.X5 m c), ?_, ?_⟩
  · exact (θ_run Cert.KernelIdeal.defs _ _).mono
      (fun r h c => ⟨(h c).1.trans (Cert.KernelIdeal.Val.w9_result m ρ c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v65_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
